-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S3936 : Shape := ⟨1, ![3936]⟩
abbrev S1703936 : Shape := ⟨1, ![1703936]⟩
abbrev S1703936x1 : Shape := ⟨2, ![1703936, 1]⟩
abbrev S1703936x128 : Shape := ⟨2, ![1703936, 128]⟩
abbrev S4096x128 : Shape := ⟨2, ![4096, 128]⟩
abbrev S4096x1 : Shape := ⟨2, ![4096, 1]⟩

abbrev nBuf : Space → Nat
  | .hbm => 67
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S128x128, .f32⟩
  | .hbm, ⟨24, _⟩ => ⟨S1x128, .f32⟩
  | .hbm, ⟨25, _⟩ => ⟨S100000x128, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S3936, .i32⟩
  | .hbm, ⟨47, _⟩ => ⟨S_, .f32⟩
  | .hbm, ⟨48, _⟩ => ⟨S3936, .f32⟩
  | .hbm, ⟨49, _⟩ => ⟨S1703936, .i32⟩
  | .hbm, ⟨50, _⟩ => ⟨S1703936, .i32⟩
  | .hbm, ⟨51, _⟩ => ⟨S1703936, .f32⟩
  | .hbm, ⟨52, _⟩ => ⟨S_, .i32⟩
  | .hbm, ⟨53, _⟩ => ⟨S1703936, .i32⟩
  | .hbm, ⟨54, _⟩ => ⟨S1703936, .i1⟩
  | .hbm, ⟨55, _⟩ => ⟨S_, .i32⟩
  | .hbm, ⟨56, _⟩ => ⟨S1703936, .i32⟩
  | .hbm, ⟨57, _⟩ => ⟨S1703936, .i32⟩
  | .hbm, ⟨58, _⟩ => ⟨S1703936, .i32⟩
  | .hbm, ⟨59, _⟩ => ⟨S1703936x1, .i32⟩
  | .hbm, ⟨60, _⟩ => ⟨S1703936x128, .f32⟩
  | .hbm, ⟨61, _⟩ => ⟨S1703936x1, .f32⟩
  | .hbm, ⟨62, _⟩ => ⟨S1703936x128, .f32⟩
  | .hbm, ⟨63, _⟩ => ⟨S_, .f32⟩
  | .hbm, ⟨64, _⟩ => ⟨S100000x128, .f32⟩
  | .hbm, ⟨65, _⟩ => ⟨S1703936x1, .i32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4096x128, .f32⟩
  | .local _ .vmem, ⟨7, _⟩ => ⟨S4096x128, .f32⟩
  | .local _ .vmem, ⟨8, _⟩ => ⟨S4096x1, .f32⟩
  | .local _ .vmem, ⟨9, _⟩ => ⟨S4096x1, .f32⟩
  | .local _ .vmem, ⟨10, _⟩ => ⟨S4096x128, .f32⟩
  | .local _ .vmem, ⟨11, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![416], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S3936 : S_.BroadcastsInDim S3936 (![] : Fin 0 → Fin S3936.rank)
  concatenates_S1700000_S3936_S1703936_d0 : Shape.Concatenates [S1700000, S3936] S1703936 0
  bcast_S_S1703936 : S_.BroadcastsInDim S1703936 (![] : Fin 0 → Fin S1703936.rank)
  bcast_S1703936_S1703936x1_0 : S1703936.BroadcastsInDim S1703936x1 (![0] : Fin 1 → Fin S1703936x1.rank)
  shapeCasts_S1703936_S1703936x1 : S1703936.ShapeCasts S1703936x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1703936x128.size a
  hwx1_0 : ∀ i : grid1.Coords, EltTy.bits .f32 = 32 ∨ (Rect.block (s := S1703936x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1703936x1.size a
  hwx1_1 : ∀ i : grid1.Coords, EltTy.bits .f32 = 32 ∨ (Rect.block (s := S1703936x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S1703936x128.size a
  hwx1_2 : ∀ i : grid1.Coords, EltTy.bits .f32 = 32 ∨ (Rect.block (s := S1703936x128) S4096x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S128x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
import Idealize.ShloMosaic.PureOps.Ideal
import Idealize.ShloMosaic.Lib.ValueIdx

/-!
The two dense stages of the graph convolution, as functions of whole arrays over the extended reals.

The linear layer sends the node features x [100000, 128], the transposed weights wt [128, 128] and the bias row
b2 [1, 128] to h, with h(r, j) = Σ_k x(r, k) · wt(k, j) + b2(0, j).

The message stage scales row t of the gathered features hg [1703936, 128] by the t-th edge coefficient, held in the
one-column array nc [1703936, 1]: msgs(t, j) = hg(t, j) · nc(t, 0).
-/

noncomputable section

open scoped BigOperators

namespace Cert.Spec

open Idealize.ShloMosaic Idealize.ShloMosaic.ValueIdx

/-- The linear layer: row r of x against column j of wt, plus entry j of the bias row. -/
def lin (x : FVec Ideal ⟨2, ![100000, 128]⟩ .f32) (wt : FVec Ideal ⟨2, ![128, 128]⟩ .f32)
    (b2 : FVec Ideal ⟨2, ![1, 128]⟩ .f32) : FVec Ideal ⟨2, ![100000, 128]⟩ .f32 :=
  fun i => (∑ k : Fin 128, x (ix2 (i 0 : Fin 100000) k) * wt (ix2 k (i 1 : Fin 128))) + b2 (ix2 (0 : Fin 1) (i 1 : Fin 128))

/-- The message stage: each gathered row times its edge's coefficient. -/
def scale (hg : FVec Ideal ⟨2, ![1703936, 128]⟩ .f32) (nc : FVec Ideal ⟨2, ![1703936, 1]⟩ .f32) :
    FVec Ideal ⟨2, ![1703936, 128]⟩ .f32 :=
  fun i => hg i * nc (ix2 (i 0 : Fin 1703936) (0 : Fin 1))

end Cert.Spec

end
-- ==== Proof.LinRegion.lean ====
import proofs.«151693_j32238024524457_1_alg».proof.Proof.Gen.KernelIdeal.Frame
import proofs.«151693_j32238024524457_1_alg».proof.Proof.Spec
import Idealize.ShloMosaic.Lib.Pipeline.Value
import Idealize.ShloMosaic.PureOps.Ideal.Laws
set_option maxRecDepth 16384

noncomputable section

namespace Cert.KernelIdeal.LinRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index

The body multiplies a 5000x128 block of features by the 128x128 transposed weights, contracting the features' second
axis against the weights' first. At output index (p, q) and contraction position k the left operand is read at (p, k)
and the right operand at (k, q): one lemma per operand axis. -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction position. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction position. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the product into the zero accumulator, read at (p, q), is the sum over k of the left
    operand at (p, k) times the right operand at (k, q). -/
theorem matmul_zero_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's result at an index -/

/-- What the body stores, read at (p, q): over the extended reals the roundings to the narrower format are the
    identity and so are the casts to the same shape, the bias row is repeated along the rows, so the entry is the row
    of the features block against the column of the weights, plus the bias entry of that column. -/
theorem pay_apply (x0 : Vec Ideal S5000x128 .f32) (x1 : Vec Ideal S128x128 .f32) (x2 : Vec Ideal S1x128 .f32) (p : Fin 5000) (q : Fin 128) :
    k0_pay1 x0 x1 x2 (ix2 p q) = (∑ k : Fin 128, x0 (ix2 p k) * x1 (ix2 k q)) + x2 (ix2 (0 : Fin 1) q) := by
  unfold k0_pay1
  rw [addf_apply, matmul_zero_apply, shapeCast_self, shapeCast_self,
    broadcastTo_apply x2 broadcasts_S1x128_S5000x128 (ix2 p q) (ix2 (0 : Fin 1) q) (fun a => by
      match a with
      | ⟨0, _⟩ => rfl
      | ⟨1, _⟩ => rfl)]
  rfl

/-- The same at an index not yet split into its coordinates. -/
theorem pay_apply_idx (x0 : Vec Ideal S5000x128 .f32) (x1 : Vec Ideal S128x128 .f32) (x2 : Vec Ideal S1x128 .f32) (j : S5000x128.Idx) :
    k0_pay1 x0 x1 x2 j = (∑ k : Fin 128, x0 (ix2 (j 0 : Fin 5000) k) * x1 (ix2 k (j 1 : Fin 128))) + x2 (ix2 (0 : Fin 1) (j 1 : Fin 128)) := by
  obtain ⟨p, q, rfl⟩ : ∃ (p : Fin 5000) (q : Fin 128), j = ix2 p q := ⟨j 0, j 1, eq_ix2 j⟩
  exact pay_apply x0 x1 x2 p q

/-! ## From blocks to the array -/

theorem zero_offset : (![0, 0] : Fin 2 → Nat) = fun _ => 0 := funext fun a => by fin_cases a <;> rfl

/-- The index maps over the 20 grid points: the features' block and the output's block are both block t along the
    rows, the only block along the columns; the weights and the bias row are each their array's only block. -/
theorem block_indices : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Block t of the linear layer, read at an index j of the block, from the blocks the body is given: the features'
    block starts at the output block's first row and spans every column; the weights' block is the whole array; the bias
    row's block is the whole row. -/
theorem block_read (X : FVec Ideal S100000x128 .f32) (WT : FVec Ideal S128x128 .f32) (B : FVec Ideal S1x128 .f32)
    (t : Fin cfg0.N) (j : S5000x128.Idx) :
    (∑ k : Fin 128, X (((cfg0.win 0).blk t).view.emb (ix2 (j 0 : Fin 5000) k))
          * WT (((cfg0.win 1).blk t).view.emb (ix2 k (j 1 : Fin 128))))
        + B (((cfg0.win 2).blk t).view.emb (ix2 (0 : Fin 1) (j 1 : Fin 128)))
      = Cert.Spec.lin X WT B (((cfg0.win 3).blk t).view.emb j) := by
  obtain ⟨e0, e1, e2, e3, e4, e5, e6, e7⟩ := block_indices t
  have hx : ∀ k : Fin 128, ((cfg0.win 0).blk t).view.emb (ix2 (j 0 : Fin 5000) k)
      = ix2 ((((cfg0.win 3).blk t).view.emb j) 0 : Fin 100000) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hw : ∀ k : Fin 128, ((cfg0.win 1).blk t).view.emb (ix2 k (j 1 : Fin 128))
      = ix2 k ((((cfg0.win 3).blk t).view.emb j) 1 : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hb : ((cfg0.win 2).blk t).view.emb (ix2 (0 : Fin 1) (j 1 : Fin 128))
      = ix2 (0 : Fin 1) ((((cfg0.win 3).blk t).view.emb j) 1 : Fin 128) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  show _ = (∑ k : Fin 128, X (ix2 ((((cfg0.win 3).blk t).view.emb j) 0 : Fin 100000) k)
          * WT (ix2 k ((((cfg0.win 3).blk t).view.emb j) 1 : Fin 128)))
        + B (ix2 (0 : Fin 1) ((((cfg0.win 3).blk t).view.emb j) 1 : Fin 128))
  refine congrArg₂ (· + ·) (Finset.sum_congr rfl fun k _ => ?_) (congrArg B hb)
  exact congrArg₂ (· * ·) (congrArg X (hx k)) (congrArg WT (hw k))

variable (V : (c : Dev nD) → (b : Ref sig .tc) → Buf (Elt Ideal) ((c : Thread nD τ).loc b))

/-- What point t writes back is block t of the linear layer of the three arrays as the region finds them. -/
theorem flushed_eq (c : Dev nD) (t : Fin cfg0.N) :
    (dat0 (F := Ideal) V c).flushed 3 t
      = ((cfg0.win 3).blk t).view.read (Elt Ideal) (Cert.Spec.lin (V c main_arg0) (V c main_v15) (V c main_v16)) := by
  show (cfg0.win 3).cut (grid0.coords t) ((dat0 V c).after 3 t) = _
  rw [after0_3]
  unfold out0_3
  rw [View.canon_unit_zero zero_offset]
  simp only [View.ld_unit_zero (S := S5000x128) zero_offset, View.ld_unit_zero (S := S128x128) zero_offset, View.ld_unit_zero (S := S1x128) zero_offset]
  funext j
  refine (pay_apply_idx (iblk0 V c 0 t) (iblk0 V c 1 t) (iblk0 V c 2 t) j).trans ?_
  exact block_read (V c main_arg0) (V c main_v15) (V c main_v16) t j

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every index of the output array is in some point's block: row r is in the block of point r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5, e6, e7⟩ := block_indices t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the first region, whatever contents it was entered at, its output array is the linear layer of the three
    arrays it reads: the features, the transposed weights and the bias row. -/
theorem arr_eq (c : Dev nD) :
    (dat0 (F := Ideal) V c).arrAt 3 cfg0.N = Cert.Spec.lin (V c main_arg0) (V c main_v15) (V c main_v16) :=
  (dat0 (F := Ideal) V c).arrAt_eq_of_cover 3 _ (fun t _ => flushed_eq V c t) covered

end Cert.KernelIdeal.LinRegion

end
-- ==== Proof.ScaleRegion.lean ====
import proofs.«151693_j32238024524457_1_alg».proof.Proof.Gen.KernelIdeal.Frame
import proofs.«151693_j32238024524457_1_alg».proof.Proof.Spec
import Idealize.ShloMosaic.Lib.Pipeline.Value
set_option maxRecDepth 16384

noncomputable section

namespace Cert.KernelIdeal.ScaleRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The two zero offsets of a whole-block access, as the constant function. -/
theorem zero_off : (![0, 0] : Fin 2 → Nat) = fun _ => 0 := funext fun a => by fin_cases a <;> rfl

/-- The body's product at an entry: entry (p, q) of the feature block times the coefficient of row p. -/
theorem pay_apply (x0 : Vec Ideal S4096x128 .f32) (x1 : Vec Ideal S4096x1 .f32) (p : Fin 4096) (q : Fin 128) :
    k1_pay1 x0 x1 (ix2 p q) = x0 (ix2 p q) * x1 (ix2 p (0 : Fin 1)) := by
  unfold k1_pay1
  rw [mulf_apply, shapeCast_self, shapeCast_self]
  congr 1
  refine broadcastTo_apply _ _ (ix2 p q) (ix2 p (0 : Fin 1)) fun a => ?_
  match a with
  | ⟨0, _⟩ => rfl
  | ⟨1, _⟩ => rfl

/-- A block of the product, placed in the arrays. Let the feature block x0 be the array hg read along a placement e of
    the block's entries, and the coefficient block x1 be the column nc read at the rows e sends the block's rows to. Then
    the body's product at an entry is the scaled array at the entry's place. -/
theorem pay_eq_scale (hg : FVec Ideal ⟨2, ![1703936, 128]⟩ .f32) (nc : FVec Ideal ⟨2, ![1703936, 1]⟩ .f32)
    (x0 : Vec Ideal S4096x128 .f32) (x1 : Vec Ideal S4096x1 .f32) (e : S4096x128.Idx → S1703936x128.Idx)
    (h0 : ∀ j, x0 j = hg (e j))
    (h1 : ∀ (p : Fin 4096) (q : Fin 128), x1 (ix2 p (0 : Fin 1)) = nc (ix2 (e (ix2 p q) 0) (0 : Fin 1)))
    (j : S4096x128.Idx) : k1_pay1 x0 x1 j = Cert.Spec.scale hg nc (e j) := by
  obtain ⟨p, q, rfl⟩ : ∃ (p : Fin 4096) (q : Fin 128), j = ix2 p q := ⟨j 0, j 1, eq_ix2 j⟩
  rw [pay_apply, h0, h1 p q]
  rfl

/-- The three index maps over the grid: at point t each window's block index is (t, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled array. -/
theorem flushed_eq (c : Dev nD) (t : Fin cfg1.N) :
    (dat1 (F := Ideal) V c).flushed 2 t
      = ((cfg1.win 2).blk t).view.read (Elt Ideal) (Cert.Spec.scale (V c main_v44) (V c main_v45)) := by
  show (cfg1.win 2).cut (grid1.coords t) ((dat1 V c).after 2 t) = _
  rw [after1_2]
  unfold out1_2
  rw [View.canon_unit_zero zero_off]
  simp only [View.ld_unit_zero (S := S4096x128) zero_off, View.ld_unit_zero (S := S4096x1) zero_off]
  obtain ⟨a0, a1, b0, b1, o0, o1⟩ := index_facts t
  funext j
  show k1_pay1 (iblk1 V c 0 t) (iblk1 V c 1 t) j
    = Cert.Spec.scale (V c main_v44) (V c main_v45) (((cfg1.win 2).blk t).view.emb j)
  refine pay_eq_scale (V c main_v44) (V c main_v45) (iblk1 V c 0 t) (iblk1 V c 1 t)
    (fun y => ((cfg1.win 2).blk t).view.emb y) (fun y => ?_) (fun p q => ?_) j
  · show V c main_v44 (((cfg1.win 0).blk t).view.emb y) = V c main_v44 (((cfg1.win 2).blk t).view.emb y)
    refine congrArg _ (funext fun a => Fin.ext ?_)
    match a with
    | ⟨0, _⟩ =>
      show win1_0.index t (0 : Fin 2) * 4096 + 1 * (y 0).val = win1_2.index t (0 : Fin 2) * 4096 + 1 * (y 0).val
      rw [a0, o0]
    | ⟨1, _⟩ =>
      show win1_0.index t (1 : Fin 2) * 128 + 1 * (y 1).val = win1_2.index t (1 : Fin 2) * 128 + 1 * (y 1).val
      rw [a1, o1]
  · show V c main_v45 (((cfg1.win 1).blk t).view.emb (ix2 p (0 : Fin 1)))
      = V c main_v45 (ix2 ((((cfg1.win 2).blk t).view.emb (ix2 p q)) 0) (0 : Fin 1))
    refine congrArg _ (funext fun a => Fin.ext ?_)
    match a with
    | ⟨0, _⟩ =>
      show win1_1.index t (0 : Fin 2) * 4096 + 1 * p.val = win1_2.index t (0 : Fin 2) * 4096 + 1 * p.val
      rw [b0, o0]
    | ⟨1, _⟩ =>
      show win1_1.index t (1 : Fin 2) * 1 + 1 * 0 = 0
      rw [b1]

/-- A place of the output array is in point t's block exactly when each coordinate is in the block's range on its axis. -/
theorem mem_blk (t : Fin cfg1.N) (i : S1703936x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v46).slice (win1_2.rect t)).set ↔ _
  rw [View.set_slice_whole, Rect.mem_set_unit]
  exact Iff.rfl

/-- The 416 blocks of 4096 rows tile the 1703936 rows: row r is in the block of point r / 4096. -/
theorem cover (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have ht : (i 0).val / 4096 < cfg1.N := by show (i 0).val / 4096 < 416; omega
  obtain ⟨-, -, -, -, o0, o1⟩ := index_facts ⟨(i 0).val / 4096, ht⟩
  refine ⟨⟨(i 0).val / 4096, ht⟩, flush1_2 _, ?_⟩
  rw [mem_blk]
  intro a
  match a with
  | ⟨0, _⟩ =>
    show win1_2.index ⟨(i 0).val / 4096, ht⟩ (0 : Fin 2) * 4096 ≤ (i 0).val
      ∧ (i 0).val < win1_2.index ⟨(i 0).val / 4096, ht⟩ (0 : Fin 2) * 4096 + 4096
    rw [o0]
    show (i 0).val / 4096 * 4096 ≤ (i 0).val ∧ (i 0).val < (i 0).val / 4096 * 4096 + 4096
    omega
  | ⟨1, _⟩ =>
    show win1_2.index ⟨(i 0).val / 4096, ht⟩ (1 : Fin 2) * 128 ≤ (i 1).val
      ∧ (i 1).val < win1_2.index ⟨(i 0).val / 4096, ht⟩ (1 : Fin 2) * 128 + 128
    rw [o1]
    omega

/-- After the second region, whatever contents it was entered at, its output array is the gathered rows each scaled
    by its edge coefficient. -/
theorem arr_eq (c : Dev nD) :
    (dat1 (F := Ideal) V c).arrAt 2 cfg1.N = Cert.Spec.scale (V c main_v44) (V c main_v45) :=
  (dat1 V c).arrAt_eq_of_cover 2 (Cert.Spec.scale (V c main_v44) (V c main_v45)) (fun t _ => flushed_eq V c t) cover

end Cert.KernelIdeal.ScaleRegion

end
-- ==== Proof.Terms.lean ====
import proofs.«151693_j32238024524457_1_alg».proof.Proof.Gen.KernelIdeal
import proofs.«151693_j32238024524457_1_alg».proof.Proof.Gen.ReferenceIdeal
import proofs.«151693_j32238024524457_1_alg».proof.Proof.Spec

/-!
The two programs' results as composed terms of the four argument arrays: the node features x, the edge list ei, the
weights W and the bias b.

Both programs append a self loop to every node, count each node's in-degree, take it to the power −1/2 capped at 10⁶,
give every edge the product of its endpoints' values as coefficient, gather the linear layer's row of the edge's source,
scale it by the coefficient and add it into the row of the edge's destination. The kernel first pads the edge list with
3936 edges from node 0 to node 0 of coefficient zero, to a multiple of its block of 4096 rows.
-/

set_option maxRecDepth 16384

noncomputable section

namespace Cert.Terms

open Idealize.ShloMosaic

section KernelIdealSide

open Cert.KernelIdeal Cert.KernelIdeal.Facts₀

/-- The source endpoints: row 0 of the edge list, then every node once (its self loop). -/
def srcK (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destination endpoints: row 1 of the edge list, then every node once. -/
def dstK (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The degree normalisation of a node: its in-degree (one per edge ending there) to the power −1/2, capped at 10⁶. -/
def disK (dst : IVec S1700000 32) : FVec Ideal S100000 .f32 :=
  minimumf
    (Host.powf
      (Host.scatterAdd scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32)))
      (broadcastInDim S100000 ![] bcast_S_S100000 (constant (F := Ideal) S_ .f32 0xBF000000#32)))
    (broadcastInDim S100000 ![] bcast_S_S100000 (constant (F := Ideal) S_ .f32 0x49742400#32))

/-- A position counted from the end when negative: the word plus the node count if it is below zero, else the word. -/
def wrapK (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The coefficient of an edge: the product of its two endpoints' degree normalisations. -/
def coefK (src dst : IVec S1700000 32) : FVec Ideal S1700000 .f32 :=
  mulf
    (Host.gather gather_S100000_S1700000x1_S1700000_n_0_n_n_0_1_1 (disK dst)
      (broadcastInDim S1700000x1 ![0] bcast_S1700000_S1700000x1_0 (wrapK src)))
    (Host.gather gather_S100000_S1700000x1_S1700000_n_0_n_n_0_1_1 (disK dst)
      (broadcastInDim S1700000x1 ![0] bcast_S1700000_S1700000x1_0 (wrapK dst)))

/-- The same choice on the padded edge list. -/
def wrapPK (v : IVec S1703936 32) : IVec S1703936 32 :=
  select (cmpi .slt v (broadcastInDim S1703936 ![] bcast_S_S1703936 (constantI S_ 32 0#32)))
    (addi v (broadcastInDim S1703936 ![] bcast_S_S1703936 (constantI S_ 32 100000#32))) v

/-- An endpoint list padded with 3936 zeros. -/
def padI (v : IVec S1700000 32) : IVec S1703936 32 :=
  concatenate S1703936 0 [⟨S1700000, v⟩, ⟨S3936, broadcastInDim S3936 ![] bcast_S_S3936 (constantI S_ 32 0#32)⟩] concatenates_S1700000_S3936_S1703936_d0

/-- The coefficients padded with 3936 zeros. -/
def padF (v : FVec Ideal S1700000 .f32) : FVec Ideal S1703936 .f32 :=
  concatenate S1703936 0 [⟨S1700000, v⟩, ⟨S3936, broadcastInDim S3936 ![] bcast_S_S3936 (constant (F := Ideal) S_ .f32 0x00000000#32)⟩] concatenates_S1700000_S3936_S1703936_d0

/-- The transposed weights and the bias as a row, as the first region reads them. -/
def wtK (W : FVec Ideal S128x128 .f32) : FVec Ideal S128x128 .f32 := transpose S128x128 [1, 0] W transposes_S128x128_S128x128_1_0
def browK (b : FVec Ideal S128 .f32) : FVec Ideal S1x128 .f32 := shapeCast S1x128 b shapeCasts_S128_S1x128

/-- The gathered rows the second region reads: the linear layer's row of each padded edge's source. -/
def rowsK (h : FVec Ideal S100000x128 .f32) (src : IVec S1700000 32) : FVec Ideal S1703936x128 .f32 :=
  Host.gather gather_S100000x128_S1703936x1_S1703936x128_1_0_n_n_0_1_1128 h
    (broadcastInDim S1703936x1 ![0] bcast_S1703936_S1703936x1_0 (wrapPK (padI src)))

/-- The coefficient column the second region reads. -/
def colK (cf : FVec Ideal S1700000 .f32) : FVec Ideal S1703936x1 .f32 :=
  shapeCast S1703936x1 (padF cf) shapeCasts_S1703936_S1703936x1

/-- The kernel's result: the scaled rows of the padded edge list added into their destinations' rows of a zero array. -/
def outK (x : FVec Ideal S100000x128 .f32) (ei : IVec S2x1600000 32) (W : FVec Ideal S128x128 .f32) (b : FVec Ideal S128 .f32) :
    FVec Ideal S100000x128 .f32 :=
  Host.scatterAdd scatter_S100000x128_S1703936x1_S1703936x128_1_0_0_1
    (broadcastInDim S100000x128 ![] bcast_S_S100000x128 (constant (F := Ideal) S_ .f32 0x00000000#32))
    (broadcastInDim S1703936x1 ![0] bcast_S1703936_S1703936x1_0 (padI (dstK ei)))
    (Cert.Spec.scale (rowsK (Cert.Spec.lin x (wtK W) (browK b)) (srcK ei)) (colK (coefK (srcK ei) (dstK ei))))

end KernelIdealSide

section ReferenceIdealSide

open Cert.ReferenceIdeal Cert.ReferenceIdeal.Facts₀

/-- The source endpoints: row 0 of the edge list, then every node once (its self loop). -/
def srcR (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destination endpoints: row 1 of the edge list, then every node once. -/
def dstR (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The degree normalisation of a node: its in-degree (one per edge ending there) to the power −1/2, capped at 10⁶. -/
def disR (dst : IVec S1700000 32) : FVec Ideal S100000 .f32 :=
  minimumf
    (Host.powf
      (Host.scatterAdd scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32)))
      (broadcastInDim S100000 ![] bcast_S_S100000 (constant (F := Ideal) S_ .f32 0xBF000000#32)))
    (broadcastInDim S100000 ![] bcast_S_S100000 (constant (F := Ideal) S_ .f32 0x49742400#32))

/-- A position counted from the end when negative: the word plus the node count if it is below zero, else the word. -/
def wrapR (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The coefficient of an edge: the product of its two endpoints' degree normalisations. -/
def coefR (src dst : IVec S1700000 32) : FVec Ideal S1700000 .f32 :=
  mulf
    (Host.gather gather_S100000_S1700000x1_S1700000_n_0_n_n_0_1_1 (disR dst)
      (broadcastInDim S1700000x1 ![0] bcast_S1700000_S1700000x1_0 (wrapR src)))
    (Host.gather gather_S100000_S1700000x1_S1700000_n_0_n_n_0_1_1 (disR dst)
      (broadcastInDim S1700000x1 ![0] bcast_S1700000_S1700000x1_0 (wrapR dst)))

/-- The reference's linear layer: the features against the transposed weights, plus the bias broadcast over the rows. -/
def linR (x : FVec Ideal S100000x128 .f32) (W : FVec Ideal S128x128 .f32) (b : FVec Ideal S128 .f32) : FVec Ideal S100000x128 .f32 :=
  addf
    (Host.dotGeneral dot_S100000x128_S128x128_S100000x128_1_0_0_1_n_n none x (transpose S128x128 [1, 0] W transposes_S128x128_S128x128_1_0))
    (broadcastInDim S100000x128 ![0, 1] bcast_S1x128_S100000x128_0_1 (broadcastInDim S1x128 ![1] bcast_S128_S1x128_1 b))

/-- The reference's messages: the linear layer's row of each edge's source times the edge's coefficient. -/
def msgsR (h : FVec Ideal S100000x128 .f32) (src : IVec S1700000 32) (cf : FVec Ideal S1700000 .f32) : FVec Ideal S1700000x128 .f32 :=
  mulf
    (Host.gather gather_S100000x128_S1700000x1_S1700000x128_1_0_n_n_0_1_1128 h
      (broadcastInDim S1700000x1 ![0] bcast_S1700000_S1700000x1_0 (wrapR src)))
    (broadcastInDim S1700000x128 ![0, 1] bcast_S1700000x1_S1700000x128_0_1
      (broadcastInDim S1700000x1 ![0] bcast_S1700000_S1700000x1_0 cf))

/-- The reference's result: the messages added into their destinations' rows of a zero array. -/
def outR (x : FVec Ideal S100000x128 .f32) (ei : IVec S2x1600000 32) (W : FVec Ideal S128x128 .f32) (b : FVec Ideal S128 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (dstR ei))
    (msgsR (linR x W b) (srcR ei) (coefR (srcR ei) (dstR ei)))

end ReferenceIdealSide

/-- The two programs build the endpoint lists, the degree normalisation, the wrap and the coefficients by the same
    operations. -/
theorem srcK_eq (ei) : srcK ei = srcR ei := rfl
theorem dstK_eq (ei) : dstK ei = dstR ei := rfl
theorem disK_eq (d) : disK d = disR d := rfl
theorem wrapK_eq (v) : wrapK v = wrapR v := rfl
theorem coefK_eq (s d) : coefK s d = coefR s d := rfl

end Cert.Terms

end
-- ==== Proof.KernelFold.lean ====
import proofs.«151693_j32238024524457_1_alg».proof.Proof.Gen.KernelIdeal.Frame
import proofs.«151693_j32238024524457_1_alg».proof.Proof.Terms
import Idealize.ShloMosaic.Lib.StableHlo.Run

/-!
The kernel's result array read back through @main: three stretches of host operations with a region after the first and
after the second. Each boundary's contents are the operations' values of the previous boundary's; a region changes only
its output array, to the function of its input arrays that the region's value lemma names. Walking from the result back
to the launch memory gives the result as one composed term of the four argument arrays.
-/

set_option maxRecDepth 16384

noncomputable section

namespace Cert.KernelIdeal.Fold

open Cert.KernelIdeal Cert.KernelIdeal.Gen Cert.Terms
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The four argument arrays as launched. -/
abbrev argX : FVec Ideal S100000x128 .f32 := m ((c : Thread nD τ).loc main_arg0)
abbrev argE : IVec S2x1600000 32 := m ((c : Thread nD τ).loc main_arg1)
abbrev argW : FVec Ideal S128x128 .f32 := m ((c : Thread nD τ).loc main_arg2)
abbrev argB : FVec Ideal S128 .f32 := m ((c : Thread nD τ).loc main_arg3)

/-! ## The first stretch: what the first region and the later stretches read of it -/

theorem W1_x : W1 m ρ c (Proc.devRef .tc main_arg0) = argX m c := by
  show StableHlo.after hostOps0 (W0 m ρ c) (Proc.devRef .tc main_arg0) = _
  simp only [hostOps0]; after_results_simp <;> rfl

theorem W1_wt : W1 m ρ c (Proc.devRef .tc main_v15) = wtK (argW m c) := by
  show StableHlo.after hostOps0 (W0 m ρ c) (Proc.devRef .tc main_v15) = _
  simp only [hostOps0]; after_results_simp <;> rfl

theorem W1_brow : W1 m ρ c (Proc.devRef .tc main_v16) = browK (argB m c) := by
  show StableHlo.after hostOps0 (W0 m ρ c) (Proc.devRef .tc main_v16) = _
  simp only [hostOps0]; after_results_simp <;> rfl

theorem W1_src : W1 m ρ c (Proc.devRef .tc main_v3) = srcK (argE m c) := by
  show StableHlo.after hostOps0 (W0 m ρ c) (Proc.devRef .tc main_v3) = _
  simp only [hostOps0]; after_results_simp <;> rfl

theorem W1_dst : W1 m ρ c (Proc.devRef .tc main_v6) = dstK (argE m c) := by
  show StableHlo.after hostOps0 (W0 m ρ c) (Proc.devRef .tc main_v6) = _
  simp only [hostOps0]; after_results_simp <;> rfl

theorem W1_dis : W1 m ρ c (Proc.devRef .tc main_v14) = disK (dstK (argE m c)) := by
  show StableHlo.after hostOps0 (W0 m ρ c) (Proc.devRef .tc main_v14) = _
  simp only [hostOps0]; after_results_simp <;> rfl

/-! ## Across the first region: its output is the linear layer, everything else is kept -/

section Regions

variable (hlin : ∀ (V : (c : Dev nD) → (b : Ref sig .tc) → Buf (Elt Ideal) ((c : Thread nD τ).loc b)) (c : Dev nD),
    (dat0 (F := Ideal) V c).arrAt 3 cfg0.N = Cert.Spec.lin (V c main_arg0) (V c main_v15) (V c main_v16))
  (hscale : ∀ (V : (c : Dev nD) → (b : Ref sig .tc) → Buf (Elt Ideal) ((c : Thread nD τ).loc b)) (c : Dev nD),
    (dat1 (F := Ideal) V c).arrAt 2 cfg1.N = Cert.Spec.scale (V c main_v44) (V c main_v45))

include hlin in
theorem W2_h : W2 m ρ c (Proc.devRef .tc main_v17) = Cert.Spec.lin (argX m c) (wtK (argW m c)) (browK (argB m c)) := by
  refine (W2_arr m ρ c 3).trans ((hlin (V1 m ρ) c).trans ?_)
  show Cert.Spec.lin (W1 m ρ c (Proc.devRef .tc main_arg0)) (W1 m ρ c (Proc.devRef .tc main_v15)) (W1 m ρ c (Proc.devRef .tc main_v16)) = _
  rw [W1_x, W1_wt, W1_brow]

theorem W2_src : W2 m ρ c (Proc.devRef .tc main_v3) = srcK (argE m c) :=
  (W2_of_ne m ρ c main_v3 (by decide)).trans (W1_src m ρ c)

theorem W2_dst : W2 m ρ c (Proc.devRef .tc main_v6) = dstK (argE m c) :=
  (W2_of_ne m ρ c main_v6 (by decide)).trans (W1_dst m ρ c)

theorem W2_dis : W2 m ρ c (Proc.devRef .tc main_v14) = disK (dstK (argE m c)) :=
  (W2_of_ne m ρ c main_v14 (by decide)).trans (W1_dis m ρ c)

/-! ## The second stretch: the padded lists, the gathered rows, the coefficient column -/

theorem W3_rows : W3 m ρ c (Proc.devRef .tc main_v44)
    = rowsK (W2 m ρ c (Proc.devRef .tc main_v17)) (W2 m ρ c (Proc.devRef .tc main_v3)) := by
  show StableHlo.after hostOps1 (W2 m ρ c) (Proc.devRef .tc main_v44) = _
  simp only [hostOps1]; after_results_simp <;> rfl

set_option maxHeartbeats 2000000 in
theorem W3_col : W3 m ρ c (Proc.devRef .tc main_v45)
    = colK (mulf
        (Host.gather gather_S100000_S1700000x1_S1700000_n_0_n_n_0_1_1 (W2 m ρ c (Proc.devRef .tc main_v14))
          (broadcastInDim S1700000x1 ![0] Facts₀.bcast_S1700000_S1700000x1_0 (wrapK (W2 m ρ c (Proc.devRef .tc main_v3)))))
        (Host.gather gather_S100000_S1700000x1_S1700000_n_0_n_n_0_1_1 (W2 m ρ c (Proc.devRef .tc main_v14))
          (broadcastInDim S1700000x1 ![0] Facts₀.bcast_S1700000_S1700000x1_0 (wrapK (W2 m ρ c (Proc.devRef .tc main_v6)))))) := by
  show StableHlo.after hostOps1 (W2 m ρ c) (Proc.devRef .tc main_v45) = _
  simp only [hostOps1]; after_results
  generalize W2 m ρ c (Proc.devRef .tc main_v14) = d14
  generalize W2 m ρ c (Proc.devRef .tc main_v3) = d3
  generalize W2 m ρ c (Proc.devRef .tc main_v6) = d6
  rfl

theorem W3_dstP : W3 m ρ c (Proc.devRef .tc main_v36) = padI (W2 m ρ c (Proc.devRef .tc main_v6)) := by
  show StableHlo.after hostOps1 (W2 m ρ c) (Proc.devRef .tc main_v36) = _
  simp only [hostOps1]; after_results_simp <;> rfl

/-! ## Across the second region, and the last stretch -/

include hscale in
theorem W4_msgs : W4 m ρ c (Proc.devRef .tc main_v46)
    = Cert.Spec.scale (W3 m ρ c (Proc.devRef .tc main_v44)) (W3 m ρ c (Proc.devRef .tc main_v45)) :=
  (W4_arr m ρ c 2).trans (hscale (V3 m ρ) c)

theorem W4_dstP : W4 m ρ c (Proc.devRef .tc main_v36) = W3 m ρ c (Proc.devRef .tc main_v36) :=
  W4_of_ne m ρ c main_v36 (by decide)

theorem W5_out : W5 m ρ c (Proc.devRef .tc main_v49)
    = Host.scatterAdd scatter_S100000x128_S1703936x1_S1703936x128_1_0_0_1
        (broadcastInDim S100000x128 ![] Facts₀.bcast_S_S100000x128 (constant (F := Ideal) S_ .f32 0x00000000#32))
        (broadcastInDim S1703936x1 ![0] Facts₀.bcast_S1703936_S1703936x1_0 (W4 m ρ c (Proc.devRef .tc main_v36)))
        (W4 m ρ c (Proc.devRef .tc main_v46)) := by
  show StableHlo.after hostOps2 (W4 m ρ c) (Proc.devRef .tc main_v49) = _
  simp only [hostOps2]; after_results_simp <;> rfl

include hlin hscale in
/-- THE KERNEL'S RESULT as one term of the argument arrays. -/
theorem result_eq : W5 m ρ c (Proc.devRef .tc main_v49) = outK (argX m c) (argE m c) (argW m c) (argB m c) := by
  rw [W5_out, W4_msgs m ρ c hscale, W4_dstP, W3_dstP, W3_rows, W3_col, W2_h m ρ c hlin, W2_src, W2_dst, W2_dis]
  rfl

end Regions

end Cert.KernelIdeal.Fold

end
-- ==== Proof.RefSide.lean ====
import proofs.«151693_j32238024524457_1_alg».proof.Proof.Gen.ReferenceIdeal.Run
import proofs.«151693_j32238024524457_1_alg».proof.Proof.Terms

/-!
The reference's run ends with its result at the composed term of the argument arrays that the two-sided comparison is
stated over: the same operations, named stage by stage.
-/

set_option maxRecDepth 16384

noncomputable section

namespace Cert.ReferenceIdeal.RefValue

open Cert.ReferenceIdeal Cert.Terms
open Idealize.ShloMosaic Idealize.ShloMosaic.TcCoe Idealize.SL.Sem

/-- The reference's result term is the messages of the unpadded edge list added into their destinations' rows. -/
theorem res_eq (m : (ℓ : Loc nD τ sig) → Buf (Elt Ideal) ℓ) (c : Dev nD) :
    Cert.ReferenceIdeal.Value.res_out0 (F := Ideal) m c
      = outR (m ((c.tc : Thread nD τ).loc main_arg0)) (m ((c.tc : Thread nD τ).loc main_arg1))
          (m ((c.tc : Thread nD τ).loc main_arg2)) (m ((c.tc : Thread nD τ).loc main_arg3)) := by
  show Cert.ReferenceIdeal.Value.res_main_v47 (F := Ideal) m c = _
  unfold Cert.ReferenceIdeal.Value.res_main_v47
  rfl

end Cert.ReferenceIdeal.RefValue

end
-- ==== Proof.LibSegmentRows.lean ====
import Idealize.ShloMosaic.PureOps.Ideal
import Idealize.ShloMosaic.PureOps.Ideal.Laws
import Idealize.ShloMosaic.Lib.ValueIdx

/-!
A float scatter-add of rows read at an entry.

`K` accumulator rows of `D` columns, `N` update rows, update row `n` added into the accumulator row its segment number
names: a scatter with an `add` body whose operand is `[K, D]`, whose scatter indices are the `[N, 1]` column of segment
numbers and whose updates are `[N, D]` — update window axis 1, the operand's axis 0 inserted and start-indexed, the index
vector on axis 1. Over the extended reals entry `(s, j)` of the result is the operand's entry plus the sum over the
update rows whose segment number, read signed, is `s` of their column `j`; a row whose number is negative or `K` and
above lands nowhere.
-/

noncomputable section

open scoped BigOperators

namespace Idealize.ShloMosaic.SegmentRows

open Idealize.ShloMosaic Idealize.ShloMosaic.ValueIdx

/-- The updates' one scatter axis — an axis that is not the window axis — is axis 0. -/
private theorem uScatter_mem {K D N : Nat} (d : ScatterDims ⟨2, ![K, D]⟩ ⟨2, ![N, 1]⟩ ⟨2, ![N, D]⟩)
    (huw : d.updateWindowDims = [1]) (X : Fin 2) (hX : X ∈ d.uScatter) : X = 0 := by
  have h := (List.mem_filter.1 hX).2
  rw [huw] at h
  match X with
  | ⟨0, _⟩ => rfl
  | ⟨1, _⟩ => simp at h

/-- The start of update `(n, j')`'s window on the operand's row axis: row `n` of the index column, read signed. -/
private theorem start_zero {K D N w : Nat} (d : ScatterDims ⟨2, ![K, D]⟩ ⟨2, ![N, 1]⟩ ⟨2, ![N, D]⟩)
    (huw : d.updateWindowDims = [1])
    (hsd : d.scatterDimsToOperandDims = [0]) (hiv : d.indexVectorDim = 1)
    (idx : IVec ⟨2, ![N, 1]⟩ w) (n : Fin N) (j' : Fin D) :
    d.start (ix2 n j') idx 0 = (idx (ix2 n (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's row coordinate
    unfold ScatterDims.siIdx
    rw [dif_neg (by rw [hiv]; simp)]
    unfold ScatterDims.siCoord
    apply Fin.ext
    simp only [Fin.val_cast]
    have e : ∀ X : Fin 2, X ∈ d.uScatter → ((ix2 n j' : (⟨2, ![N, D]⟩ : Shape).Idx) X).val = n.val := fun X hX => by
      obtain rfl := uScatter_mem d huw X hX
      rfl
    exact e _ (List.getElem_mem _)
  | ⟨1, _⟩ =>
    -- axis 1 is the index vector's: the component number, the position of operand axis 0 in the one-entry map
    unfold ScatterDims.siIdx
    rw [dif_pos (by rw [hiv])]
    apply Fin.ext
    show List.idxOf (0 : Fin 2) d.scatterDimsToOperandDims = 0
    rw [hsd]; simp

/-- The map names no start for the operand's column axis: the window starts at column `0`. -/
private theorem start_one {K D N w : Nat} (d : ScatterDims ⟨2, ![K, D]⟩ ⟨2, ![N, 1]⟩ ⟨2, ![N, D]⟩)
    (hsd : d.scatterDimsToOperandDims = [0])
    (idx : IVec ⟨2, ![N, 1]⟩ w) (i : (⟨2, ![N, D]⟩ : Shape).Idx) :
    d.start i idx 1 = 0 := by
  unfold ScatterDims.start
  rw [dif_neg]
  rw [hsd]; simp

/-- The operand's row axis is inserted, so the window coordinate on it is `0`. -/
private theorem window_zero {K D N : Nat} (d : ScatterDims ⟨2, ![K, D]⟩ ⟨2, ![N, 1]⟩ ⟨2, ![N, D]⟩)
    (hiw : d.insertedWindowDims = [0]) (i : (⟨2, ![N, D]⟩ : Shape).Idx) :
    d.window i 0 = 0 := by
  unfold ScatterDims.window
  rw [dif_neg]
  simp [ScatterDims.sKept, Shape.kept, hiw]

/-- The operand's column axis is its one kept axis: the window coordinate on it is the update's column. -/
private theorem window_one {K D N : Nat} (d : ScatterDims ⟨2, ![K, D]⟩ ⟨2, ![N, 1]⟩ ⟨2, ![N, D]⟩)
    (huw : d.updateWindowDims = [1]) (hiw : d.insertedWindowDims = [0]) (i : (⟨2, ![N, D]⟩ : Shape).Idx) :
    d.window i 1 = (i 1).val := by
  have hm : (1 : Fin 2) ∈ d.sKept := by
    simp [ScatterDims.sKept, Shape.kept, hiw]
  unfold ScatterDims.window
  rw [dif_pos hm]
  have e : ∀ X : Fin 2, X ∈ d.updateWindowDims → X = 1 := fun X hX => by
    rw [huw] at hX; exact List.mem_singleton.1 hX
  exact congrArg (fun X => (i X).val) (e _ (List.getElem_mem _))

/-- Where update `(n, j')` lands: in its own column, at the row its segment number names when that is one of
    `0 … K - 1`. -/
theorem resultIdx?_eq_some_iff {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (j' : Fin D) (s : Fin K) (j : Fin D) :
    d.resultIdx? (ix2 n j') idx = some (ix2 s j)
      ↔ (idx (ix2 n (0 : Fin 1))).toInt = (s.val : Int) ∧ j' = j := by
  have hst0 := start_zero d huw hsd hiv idx n j'
  have hst1 := start_one d hsd idx (ix2 n j')
  have hw0 := window_zero d hiw (ix2 n j')
  have hw1 : d.window (ix2 n j') 1 = j'.val := window_one d huw hiw (ix2 n j')
  have hK : (⟨2, ![K, D]⟩ : Shape).size (0 : Fin 2) = K := rfl
  have hD : (⟨2, ![K, D]⟩ : Shape).size (1 : Fin 2) = D := rfl
  have hs := s.isLt
  have hj := j.isLt
  have hj' := j'.isLt
  unfold ScatterDims.resultIdx?
  split
  · next h =>
    rw [Option.some.injEq]
    constructor
    · intro e
      have e0 := congrArg (fun f => (f (0 : Fin 2)).val) e
      have e1 := congrArg (fun f => (f (1 : Fin 2)).val) e
      simp only [hst0, hst1, hw0, hw1] at e0 e1
      change ((idx (ix2 n (0 : Fin 1))).toInt + ((0 : Nat) : Int)).toNat = s.val at e0
      change ((0 : Int) + ((j'.val : Nat) : Int)).toNat = j.val at e1
      have h0 := h 0
      rw [hst0, hw0] at h0
      exact ⟨by omega, Fin.ext (by omega)⟩
    · rintro ⟨e, rfl⟩
      funext a
      match a with
      | ⟨0, _⟩ =>
        apply Fin.ext
        show (d.start (ix2 n j') idx 0 + ((d.window (ix2 n j') 0 : Nat) : Int)).toNat = s.val
        rw [hst0, hw0]; omega
      | ⟨1, _⟩ =>
        apply Fin.ext
        show (d.start (ix2 n j') idx 1 + ((d.window (ix2 n j') 1 : Nat) : Int)).toNat = j'.val
        rw [hst1, hw1]; omega
  · next h =>
    constructor
    · intro e; exact absurd e (by simp)
    · rintro ⟨e, rfl⟩
      exfalso
      apply h
      rw [Fin.forall_fin_two]
      refine ⟨?_, ?_⟩
      · rw [hst0, hw0, hK, e]; omega
      · rw [hst1, hw1, hD]; omega

/-- THE SEGMENT SUM OF ROWS AT AN ENTRY: the operand's entry plus column `j` of the update rows of that segment. -/
theorem scatterAdd_rows_apply {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32) (idx : IVec ⟨2, ![N, 1]⟩ w) (upd : FVec Ideal ⟨2, ![N, D]⟩ .f32)
    (s : Fin K) (j : Fin D) :
    Host.scatterAdd (F := Ideal) d x idx upd (ix2 s j)
      = x (ix2 s j) + ∑ n : Fin N, if (idx (ix2 n (0 : Fin 1))).toInt = (s.val : Int) then upd (ix2 n j) else 0 := by
  show Ideal.hostScatterAdd d x idx upd (ix2 s j) = _
  unfold Ideal.hostScatterAdd
  congr 1
  -- the sum over the update indices that land on `(s, j)`, as a double sum over rows and columns
  rw [Finset.sum_filter, sum_idx2]
  refine Finset.sum_congr rfl fun n _ => ?_
  simp only [resultIdx?_eq_some_iff d huw hiw hsd hiv idx n _ s j]
  -- in row `n` only column `j` lands in column `j`
  by_cases hA : (idx (ix2 n (0 : Fin 1))).toInt = (s.val : Int)
  · simp only [hA, true_and]
    rw [Finset.sum_ite_eq']
    simp
  · simp [hA]

end Idealize.ShloMosaic.SegmentRows

end
-- ==== Proof.LibSegmentPad.lean ====
import proofs.«151693_j32238024524457_1_alg».proof.Proof.LibSegmentRows
import Mathlib.Algebra.BigOperators.Fin

/-!
A float scatter-add of rows whose update list is padded with zero rows.

`K` accumulator rows of `D` columns; `N + P` update rows of which the last `P` are zero in every column. Adding the
`N + P` rows into the rows their segment numbers name gives what adding the first `N` rows does, whatever segment
numbers the padding rows carry: over the extended reals entry `(s, j)` of either result is the operand's entry plus
the sum of column `j` over the update rows of segment `s`, the sum over `N + P` rows splits into the first `N` and the
last `P`, and every term of the second part is zero.
-/

noncomputable section

open scoped BigOperators

namespace Idealize.ShloMosaic.SegmentPad

open Idealize.ShloMosaic Idealize.ShloMosaic.ValueIdx Idealize.ShloMosaic.SegmentRows

/-- THE PADDED SEGMENT SUM: two scatter-adds of rows into the same operand agree when the longer update list is the
    shorter one (same segment numbers, same rows) followed by zero rows. -/
theorem scatterAdd_rows_pad {K D N P w : Nat}
    (dP : ScatterDims ⟨2, ![K, D]⟩ ⟨2, ![N + P, 1]⟩ ⟨2, ![N + P, D]⟩)
    (huwP : dP.updateWindowDims = [1]) (hiwP : dP.insertedWindowDims = [0])
    (hsdP : dP.scatterDimsToOperandDims = [0]) (hivP : dP.indexVectorDim = 1)
    (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32)
    (idxP : IVec ⟨2, ![N + P, 1]⟩ w) (idx : IVec ⟨2, ![N, 1]⟩ w)
    (updP : FVec Ideal ⟨2, ![N + P, D]⟩ .f32) (upd : FVec Ideal ⟨2, ![N, D]⟩ .f32)
    (hidx : ∀ n : Fin N, idxP (ix2 (Fin.castAdd P n) (0 : Fin 1)) = idx (ix2 n (0 : Fin 1)))
    (hupd : ∀ (n : Fin N) (j : Fin D), updP (ix2 (Fin.castAdd P n) j) = upd (ix2 n j))
    (htail : ∀ (p : Fin P) (j : Fin D), updP (ix2 (Fin.natAdd N p) j) = 0) :
    Host.scatterAdd (F := Ideal) dP x idxP updP = Host.scatterAdd (F := Ideal) d x idx upd := by
  funext i
  obtain ⟨s, j, rfl⟩ : ∃ (s : Fin K) (j : Fin D), i = ix2 s j := ⟨i 0, i 1, eq_ix2 i⟩
  rw [scatterAdd_rows_apply dP huwP hiwP hsdP hivP, scatterAdd_rows_apply d huw hiw hsd hiv]
  congr 1
  rw [Fin.sum_univ_add]
  -- the padding rows add nothing
  have hz : (∑ p : Fin P, if (idxP (ix2 (Fin.natAdd N p) (0 : Fin 1))).toInt = (s.val : Int)
      then updP (ix2 (Fin.natAdd N p) j) else 0) = 0 :=
    Finset.sum_eq_zero fun p _ => by rw [htail p j, ite_self]
  rw [hz, add_zero]
  -- the first N rows are the shorter list's
  exact Finset.sum_congr rfl fun n _ => by rw [hidx n, hupd n j]

end Idealize.ShloMosaic.SegmentPad

end
-- ==== Proof.LibGatherClamp.lean ====
/-
  The row gather that indexing a matrix by a vector of positions produces, read at one result index for ANY index word,
  and the two facts about a word that names a row which put the read in closed form.

  A row gather takes an operand [N, D] and a column [B, 1] of start indices to the result [B, D] whose row b is the
  operand's row named by the b-th start index. StableHLO reads a start index as a signed word and clamps it so that the
  slice fits inside the operand: on the row axis, whose slice size is 1, into [0, N − 1]. So the result's entry (b, c) is
  the operand's entry (min (max i 0) (N − 1), c) for i the signed reading of the b-th index word — a negative word reads
  row 0, a word N or above reads the last row.

  When the signed reading of a word is a number v below N, the clamp leaves v; and such a word is not negative, so the
  choice "the word plus N if it is negative, else the word" that is put in front of a gather to count negative positions
  from the end is the word itself.

  The gather theorem is stated for any record of dimension numbers whose fields are the lists of this form; the record's
  well-formedness proof is left abstract.
-/
import Idealize.ShloMosaic.PureOps.Dims
import Idealize.ShloMosaic.PureOps.ShapeOps
import Idealize.ShloMosaic.PureOps.Float
import Idealize.ShloMosaic.Lib.ValueIdx

namespace Idealize.ShloMosaic.GatherClamp

open Idealize.ShloMosaic Idealize.ShloMosaic.ValueIdx

/-! ## Words that name a row -/

/-- A word whose signed reading is a number v below n, read signed and clamped into [0, n − 1], is v: the reading is
    not negative, and v is already at most n − 1. -/
theorem clamp_of_toInt_eq {k : Nat} (w : BitVec k) (n v : Nat) (hv : v < n) (h : w.toInt = (v : Int)) :
    min w.toInt.toNat (n - 1) = v := by
  rw [h, Int.toNat_natCast]
  exact Nat.min_eq_left (by omega)

/-- A word whose signed reading is a natural number is not below zero in the signed order, so a choice on
    "the word is signed-below zero" between any other word and the word itself is the word. -/
theorem norm_of_toInt_eq {k : Nat} (w a : BitVec k) (v : Nat) (h : w.toInt = (v : Int)) :
    Scalar.select (IntOp.cmpi .slt w 0#k) a w = w := by
  have hs : w.slt 0#k = false := by
    rw [BitVec.slt, h, BitVec.toInt_zero]
    exact decide_eq_false (by omega)
  show (if BitVec.ofBool (w.slt 0#k) = 1 then a else w) = w
  rw [hs]
  exact if_neg (by decide)

/-! ## The row gather -/

private theorem zero_mem : (0 : Fin 2) ∈ ([0] : List (Fin 2)) := by decide
private theorem one_not_mem : (1 : Fin 2) ∉ ([0] : List (Fin 2)) := by decide

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_clamp {N D B w : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (c : Fin D) (hN : 0 < N) :
    Host.gather (rowsDims N D B wf) x idx (ix2 b c)
      = x (ix2 ⟨min (idx (ix2 b 0)).toInt.toNat (N - 1), by omega⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the start index clamped into [0, N − 1], no offset
    show (rowsDims N D B wf).start (ix2 b c) idx (0 : Fin 2) + (rowsDims N D B wf).offCoord (ix2 b c) (0 : Fin 2)
      = min (idx (ix2 b 0)).toInt.toNat (N - 1)
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    -- the clamp's upper end: the axis's extent N less its slice size 1
    rfl
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c), for any index word: the operand at
    column c of the row the b-th start index names once read SIGNED and CLAMPED into the table — a negative index reads
    row 0, one past the end reads the last row. -/
theorem gather_rows_clamp {N D B w : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ w) (b : Fin B) (c : Fin D) (hN : 0 < N) :
    Host.gather d x idx (ix2 b c) = x (ix2 ⟨min (idx (ix2 b 0)).toInt.toNat (N - 1), by omega⟩ c) := by
  obtain ⟨od, cd, ob, sb, sm, iv, ss, wf⟩ := d
  dsimp only at h1 h2 h3 h4 h5 h6 h7
  subst h1 h2 h3 h4 h5 h6 h7
  exact rows_clamp wf x idx b c hN

end Idealize.ShloMosaic.GatherClamp
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Algebra.lean ====
import proofs.«151693_j32238024524457_1_alg».proof.Proof.Terms
import proofs.«151693_j32238024524457_1_alg».proof.Proof.LibSegmentPad
import proofs.«151693_j32238024524457_1_alg».proof.Proof.LibGatherClamp
import proofs.«151693_j32238024524457_1_alg».proof.Proof.LibKeepdims
import proofs.«151693_j32238024524457_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-!
The kernel's and the reference's results are one function of the argument arrays.

Both are a sum of message rows into destination rows of a zero array. The kernel's edge list is the reference's followed
by 3936 padding edges whose coefficient is zero, so each padding message row is a row of the linear layer times zero,
which is zero on the extended reals whatever the row holds; a sum into destination rows does not see zero rows. On the
first 1700000 edges the two lists agree entry by entry: the same destination, the same source after the same wrap of
negative positions and the same clamp into the table, the same coefficient; and the two linear layers are the same sum
over the 128 input features plus the same bias entry.
-/

set_option maxRecDepth 16384

noncomputable section

open scoped BigOperators

namespace Cert.Algebra

open Cert.Terms Cert.KernelIdeal
open Idealize.ShloMosaic Idealize.ShloMosaic.ValueIdx

variable {α : Type}

/-! ## Layouts read at an index -/

/-- A vector laid out as a one-column array reads, in row `a`, the vector's entry `a`. -/
theorem column_apply {n : Nat} (h : (⟨1, ![n]⟩ : Shape).BroadcastsInDim ⟨2, ![n, 1]⟩ ![0])
    (v : (⟨1, ![n]⟩ : Shape).Idx → α) (a : Fin n) (u : Fin 1) :
    broadcastInDim ⟨2, ![n, 1]⟩ ![0] h v (ix2 a u) = v (ix1 a) :=
  broadcastInDim_apply _ h v (ix2 a u) (ix1 a) fun ax => by
    match ax with
    | ⟨0, _⟩ =>
      show a.val = if n = 1 then 0 else a.val
      split
      · have := a.isLt; omega
      · rfl

/-- A one-column array spread along rows of width `d` reads, at `(a, j)`, the column's entry of row `a`. -/
theorem spread_apply {n d : Nat} (h : (⟨2, ![n, 1]⟩ : Shape).BroadcastsInDim ⟨2, ![n, d]⟩ ![0, 1])
    (v : (⟨2, ![n, 1]⟩ : Shape).Idx → α) (a : Fin n) (j : Fin d) :
    broadcastInDim ⟨2, ![n, d]⟩ ![0, 1] h v (ix2 a j) = v (ix2 a (0 : Fin 1)) :=
  broadcastInDim_apply _ h v (ix2 a j) (ix2 a (0 : Fin 1)) fun ax => by
    match ax with
    | ⟨0, _⟩ =>
      show a.val = if n = 1 then 0 else a.val
      split
      · have := a.isLt; omega
      · rfl
    | ⟨1, _⟩ => rfl

/-! ## The padded lists -/

/-- Below the padding a padded endpoint list is the list. -/
theorem padI_left (v : IVec S1700000 32) (n : Fin 1700000) :
    padI v (ix1 (Fin.castAdd 3936 n : Fin 1703936)) = v (ix1 n) := by
  unfold padI
  exact concatenate_pair_apply_left (t := S1703936) (s₁ := S1700000) (s₂ := S3936) 0 v _ _
    (ix1 (Fin.castAdd 3936 n : Fin 1703936)) rfl (ix1 n) (fun b => by match b with | ⟨0, _⟩ => rfl)

/-- Below the padding the padded coefficients are the coefficients. -/
theorem padF_left (v : FVec Ideal S1700000 .f32) (n : Fin 1700000) :
    padF v (ix1 (Fin.castAdd 3936 n : Fin 1703936)) = v (ix1 n) := by
  unfold padF
  exact concatenate_pair_apply_left (t := S1703936) (s₁ := S1700000) (s₂ := S3936) 0 v _ _
    (ix1 (Fin.castAdd 3936 n : Fin 1703936)) rfl (ix1 n) (fun b => by match b with | ⟨0, _⟩ => rfl)

/-- In the padding the coefficient is zero. -/
theorem padF_right (v : FVec Ideal S1700000 .f32) (p : Fin 3936) :
    padF v (ix1 (Fin.natAdd 1700000 p : Fin 1703936)) = 0 := by
  unfold padF
  refine (concatenate_pair_apply_right (t := S1703936) (s₁ := S1700000) (s₂ := S3936) 0 v _ _
    (ix1 (Fin.natAdd 1700000 p : Fin 1703936)) rfl rfl (ix1 p) (fun b hb => ?_) ?_).trans ?_
  · match b with
    | ⟨0, _⟩ => exact absurd rfl hb
  · show p.val + 1700000 = 1700000 + p.val
    omega
  · show Ideal.ofBits .f32 0x00000000#32 = 0
    exact Ideal.ofBits_zero_f32

/-- The coefficient column holds the padded coefficients. -/
theorem colK_apply (cf : FVec Ideal S1700000 .f32) (t : Fin 1703936) : colK cf (ix2 t (0 : Fin 1)) = padF cf (ix1 t) := by
  unfold colK
  exact Keepdims.shapeCast_a_a1_apply _ _ t 0

/-! ## The wrap of negative positions, word by word -/

/-- The word a position word is replaced by: itself plus the node count if it reads negative, else itself. -/
def wrapWord (a : BitVec 32) : BitVec 32 := Scalar.select (IntOp.cmpi .slt a 0#32) (IntOp.addi a 100000#32) a

theorem wrapPK_apply (w : IVec S1703936 32) (i : S1703936.Idx) : wrapPK w i = wrapWord (w i) := rfl
theorem wrapR_apply (v : IVec S1700000 32) (i : S1700000.Idx) : wrapR v i = wrapWord (v i) := rfl

/-! ## Two row gathers from one table whose start words agree read the same row -/

theorem gather_rows_congr {N D B B' w : Nat}
    (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (d' : GatherDims ⟨2, ![N, D]⟩ ⟨2, ![B', 1]⟩ ⟨2, ![B', D]⟩)
    (h1' : d'.offsetDims = [1]) (h2' : d'.collapsedSliceDims = [0]) (h3' : d'.operandBatchingDims = [])
    (h4' : d'.startIndicesBatchingDims = []) (h5' : d'.startIndexMap = [0]) (h6' : d'.indexVectorDim = 1)
    (h7' : d'.sliceSizes = ![1, D])
    (x : (⟨2, ![N, D]⟩ : Shape).Idx → α) (idx : IVec ⟨2, ![B, 1]⟩ w) (idx' : IVec ⟨2, ![B', 1]⟩ w)
    (b : Fin B) (b' : Fin B') (c : Fin D) (hN : 0 < N)
    (hidx : idx (ix2 b (0 : Fin 1)) = idx' (ix2 b' (0 : Fin 1))) :
    Host.gather d x idx (ix2 b c) = Host.gather d' x idx' (ix2 b' c) := by
  rw [GatherClamp.gather_rows_clamp d h1 h2 h3 h4 h5 h6 h7 x idx b c hN,
    GatherClamp.gather_rows_clamp d' h1' h2' h3' h4' h5' h6' h7' x idx' b' c hN]
  refine congrArg (fun r : Fin N => x (ix2 r c)) (Fin.ext ?_)
  show min (idx (ix2 b 0)).toInt.toNat (N - 1) = min (idx' (ix2 b' 0)).toInt.toNat (N - 1)
  rw [hidx]

/-! ## The message rows below the padding -/

/-- The reference's gathered rows: the table's row of each edge's source. -/
def rowsR (h : FVec Ideal S100000x128 .f32) (src : IVec S1700000 32) : FVec Ideal Cert.ReferenceIdeal.S1700000x128 .f32 :=
  Host.gather Cert.ReferenceIdeal.gather_S100000x128_S1700000x1_S1700000x128_1_0_n_n_0_1_1128 h
    (broadcastInDim S1700000x1 ![0] Cert.ReferenceIdeal.Facts₀.bcast_S1700000_S1700000x1_0 (wrapR src))

/-- A reference message is the gathered row's entry times the edge's coefficient. -/
theorem msgsR_apply (h : FVec Ideal S100000x128 .f32) (src : IVec S1700000 32) (cf : FVec Ideal S1700000 .f32)
    (n : Fin 1700000) (j : Fin 128) : msgsR h src cf (ix2 n j) = rowsR h src (ix2 n j) * cf (ix1 n) := by
  show mulf (rowsR h src) _ (ix2 n j) = _
  rw [mulf_apply, spread_apply, column_apply]

/-- Below the padding the kernel gathers the row the reference gathers: the padded source list is the list there, and
    both programs wrap and clamp the position word the same way. -/
theorem rowsK_left (h : FVec Ideal S100000x128 .f32) (src : IVec S1700000 32) (n : Fin 1700000) (j : Fin 128) :
    rowsK h src (ix2 (Fin.castAdd 3936 n : Fin 1703936) j) = rowsR h src (ix2 n j) := by
  unfold rowsK rowsR
  refine gather_rows_congr (N := 100000) (D := 128) (B := 1703936) (B' := 1700000)
    gather_S100000x128_S1703936x1_S1703936x128_1_0_n_n_0_1_1128 rfl rfl rfl rfl rfl rfl rfl
    Cert.ReferenceIdeal.gather_S100000x128_S1700000x1_S1700000x128_1_0_n_n_0_1_1128 rfl rfl rfl rfl rfl rfl rfl
    h _ _ (Fin.castAdd 3936 n : Fin 1703936) n j (by norm_num) ?_
  rw [column_apply, column_apply, wrapPK_apply, wrapR_apply, padI_left]

/-! ## The two linear layers -/

/-- The kernel's and the reference's linear layers are the same sum over the input features plus the same bias. -/
theorem lin_eq (x : FVec Ideal S100000x128 .f32) (W : FVec Ideal S128x128 .f32) (b : FVec Ideal S128 .f32) :
    Cert.Spec.lin x (wtK W) (browK b) = linR x W b := by
  funext i
  obtain ⟨r, j, rfl⟩ : ∃ (r : Fin 100000) (j : Fin 128), i = ix2 r j := ⟨i 0, i 1, eq_ix2 i⟩
  show _ = Cert.ReferenceIdeal.Read.val_main_v19 (F := Ideal) x W b (ix2 r j)
  rw [Cert.ReferenceIdeal.Read.val_main_v19_apply, Cert.ReferenceIdeal.Read.val_main_v16_apply,
    Cert.ReferenceIdeal.Read.val_main_v18_apply, Cert.ReferenceIdeal.Read.val_main_v17_apply]
  have el : ∀ k : Fin 128, Cert.ReferenceIdeal.Read.lidx_main_v16 (ix2 r j) k = ix2 r k := fun k =>
    funext fun a => Fin.ext (by match a with | ⟨0, _⟩ => rfl | ⟨1, _⟩ => rfl)
  have er : ∀ k : Fin 128, Cert.ReferenceIdeal.Read.ridx_main_v16 (ix2 r j) k = ix2 k j := fun k =>
    funext fun a => Fin.ext (by match a with | ⟨0, _⟩ => rfl | ⟨1, _⟩ => rfl)
  have eb : Cert.ReferenceIdeal.Read.idx_main_v17 (Cert.ReferenceIdeal.Read.idx_main_v18 (ix2 r j)) = ix1 j :=
    funext fun a => Fin.ext (by match a with | ⟨0, _⟩ => rfl)
  simp only [el, er, eb]
  have hb : browK b (ix2 (0 : Fin 1) j) = b (ix1 j) := by
    unfold browK
    exact shapeCast_a_1a_apply _ _ 0 j
  show (∑ k : Fin 128, x (ix2 r k) * wtK W (ix2 k j)) + browK b (ix2 (0 : Fin 1) j) = _
  rw [hb]
  rfl

/-! ## The two results -/

/-- THE RESULTS AGREE: the kernel's sum over the padded edge list is the reference's sum over the edge list. -/
theorem out_eq (x : FVec Ideal S100000x128 .f32) (ei : IVec S2x1600000 32) (W : FVec Ideal S128x128 .f32)
    (b : FVec Ideal S128 .f32) : outK x ei W b = outR x ei W b := by
  unfold outK outR
  rw [lin_eq x W b, srcK_eq ei, dstK_eq ei, coefK_eq]
  refine SegmentPad.scatterAdd_rows_pad (K := 100000) (D := 128) (N := 1700000) (P := 3936)
    scatter_S100000x128_S1703936x1_S1703936x128_1_0_0_1 rfl rfl rfl rfl
    Cert.ReferenceIdeal.scatter_S100000x128_S1700000x1_S1700000x128_1_0_0_1 rfl rfl rfl rfl
    _ _ _ _ _ (fun n => ?_) (fun n j => ?_) (fun p j => ?_)
  · -- the destinations of the first 1700000 edges
    exact (column_apply _ _ (Fin.castAdd 3936 n : Fin 1703936) 0).trans
      ((padI_left _ n).trans (column_apply _ _ n 0).symm)
  · -- the message rows of the first 1700000 edges
    show rowsK _ _ (ix2 (Fin.castAdd 3936 n : Fin 1703936) j) * colK _ (ix2 (Fin.castAdd 3936 n : Fin 1703936) (0 : Fin 1))
      = msgsR _ _ _ (ix2 n j)
    rw [colK_apply, padF_left, msgsR_apply, rowsK_left]
  · -- a padding edge's message row is a row times zero
    show rowsK _ _ (ix2 (Fin.natAdd 1700000 p : Fin 1703936) j) * colK _ (ix2 (Fin.natAdd 1700000 p : Fin 1703936) (0 : Fin 1)) = 0
    rw [colK_apply, padF_right, mul_zero]

end Cert.Algebra

end
-- ==== Proof.lean ====
/-
  A graph-convolution layer on 100000 nodes with 128 features and 1600000 edges, against its plain reference.

  Both programs append a self loop to every node, count each node's in-degree d, give node v the weight
  min(d(v)^(−1/2), 10⁶), give the edge s → t the coefficient w(s)·w(t), form the linear layer h = x·Wᵀ + b, and return
  out(t, ·) = Σ over the edges s → t of h(s, ·)·w(s)·w(t). The kernel computes h by a blocked matrix product on 20
  row blocks (its casts of the operands to a narrower float format are the identity on the extended reals) and the
  scaled rows by an elementwise stage on 416 blocks of 4096 rows, after padding the 1700000 edges to 1703936 with edges
  0 → 0 of coefficient zero.

  The two results are equal over the extended reals: a padding edge adds h(0, ·)·0, which is 0 whatever h(0, ·) holds
  (on the extended reals zero times anything is zero), so the sum over the padded list is the sum over the list; on the
  list itself the two programs read the same row of the same table for every edge — the same wrap of negative positions,
  the same clamp into the table — and scale it by the same coefficient. No finiteness of the inputs is used.

  The kernel's run with its result named is the launch over @main's five segments read at the last boundary; the result
  there is walked back through the host stretches and the two regions (each region's output array a closed function of
  its input arrays) to one term of the argument arrays; the reference's run ends at its operations' composed term.
-/
import proofs.«151693_j32238024524457_1_alg».proof.Defs
import proofs.«151693_j32238024524457_1_alg».proof.Proof.Gen.Kernel
import proofs.«151693_j32238024524457_1_alg».proof.Proof.Gen.Kernel.Skeleton
import proofs.«151693_j32238024524457_1_alg».proof.Proof.Gen.Kernel.Launch
import proofs.«151693_j32238024524457_1_alg».proof.Proof.Gen.Kernel.Points
import proofs.«151693_j32238024524457_1_alg».proof.Proof.Gen.Kernel.Frame
import proofs.«151693_j32238024524457_1_alg».proof.Proof.Gen.KernelIdeal
import proofs.«151693_j32238024524457_1_alg».proof.Proof.Gen.KernelIdeal.Skeleton
import proofs.«151693_j32238024524457_1_alg».proof.Proof.Gen.KernelIdeal.Launch
import proofs.«151693_j32238024524457_1_alg».proof.Proof.Gen.KernelIdeal.Points
import proofs.«151693_j32238024524457_1_alg».proof.Proof.Gen.KernelIdeal.Frame
import proofs.«151693_j32238024524457_1_alg».proof.Proof.Gen.ReferenceIdeal
import proofs.«151693_j32238024524457_1_alg».proof.Proof.Gen.Pre_finite_inputs
import proofs.«151693_j32238024524457_1_alg».proof.Proof.Gen.ReferenceIdeal.Run
import proofs.«151693_j32238024524457_1_alg».proof.Proof.Gen.ReferenceIdeal.Read
import proofs.«151693_j32238024524457_1_alg».proof.Proof.KernelRun
import proofs.«151693_j32238024524457_1_alg».proof.Proof.LinRegion
import proofs.«151693_j32238024524457_1_alg».proof.Proof.ScaleRegion
import proofs.«151693_j32238024524457_1_alg».proof.Proof.KernelFold
import proofs.«151693_j32238024524457_1_alg».proof.Proof.RefSide
import proofs.«151693_j32238024524457_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the sum, over the unpadded edge list, of the scaled
    rows into their destinations' rows. -/
theorem algebraic : Cert.algebraic_KernelIdeal_ReferenceIdeal := by
  intro m ρ m' ρ' _ hagree
  refine ⟨fun c => Cert.Terms.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans
          (Cert.KernelIdeal.Fold.result_eq m ρ c Cert.KernelIdeal.LinRegion.arr_eq Cert.KernelIdeal.ScaleRegion.arr_eq),
        (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    rw [(hagree c).1, (hagree c).2.1, (hagree c).2.2.1, (hagree c).2.2.2]
    exact (Cert.Algebra.out_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
